-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : IVec S8192 32) (main_arg3 : IVec S8192x8192 1) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S8192x8192 : Shape := ⟨2, ![8192, 8192]⟩
abbrev S_ : Shape := ⟨0, ![]⟩
abbrev S8192x1 : Shape := ⟨2, ![8192, 1]⟩
abbrev S128 : Shape := ⟨1, ![128]⟩
abbrev S1024x128 : Shape := ⟨2, ![1024, 128]⟩
abbrev S1024x1024 : Shape := ⟨2, ![1024, 1024]⟩
abbrev S1024 : Shape := ⟨1, ![1024]⟩
abbrev S128x1024 : Shape := ⟨2, ![128, 1024]⟩

abbrev nBuf : Space → Nat
  | .hbm => 50
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S8192x8192, .i1⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x128, .f32⟩
  | .hbm, ⟨13, _⟩ => ⟨S8192x128, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x128, .f32⟩
  | .hbm, ⟨28, _⟩ => ⟨S8192x128, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8192x128, .f32⟩
  | .hbm, ⟨38, _⟩ => ⟨S8192x128, .f32⟩
  | .hbm, ⟨39, _⟩ => ⟨S8192x128, .bf16⟩
  | .hbm, ⟨40, _⟩ => ⟨S8192x128, .bf16⟩
  | .hbm, ⟨41, _⟩ => ⟨S8192x8192, .i32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .i32⟩
  | .local _ .vmem, ⟨5, _⟩ => ⟨S1024x1024, .i32⟩
  | .local _ .vmem, ⟨6, _⟩ => ⟨S1024, .f32⟩
  | .local _ .vmem, ⟨7, _⟩ => ⟨S1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  reducesTo_S8192x128_S128_d0 : S8192x128.ReducesTo [0] S128
  reducesTo_S128_S_d0 : S128.ReducesTo [0] S_
  bcast_S_S8192x128 : S_.BroadcastsInDim S8192x128 (![] : Fin 0 → Fin S8192x128.rank)
  bitsLt_bf16_f32 : FTy.bits .bf16 < FTy.bits .f32
  natLt_1_32 : 1 < 32
  inb_S1024_S1024_0 : ∀ a, (![0] : Fin 1 → Nat) a + S1024.size a ≤ S1024.size a
  h_S1024 : 0 < S1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  shapeCasts_S1024_S1024 : S1024.ShapeCasts S1024
  reduces_S1024x1024_S1024 : S1024x1024.Reduces [1] S1024
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .i32 = 32 ∨ (Rect.block (s := S8192x8192) S1024x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S8192.size a
  hwx0_3 : ∀ i : grid0.Coords, EltTy.bits .f32 = 32 ∨ (Rect.block (s := S8192) S1024.size (cc0_transform_3 i) (hinb0_3 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v20) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S8192x8192, .i1⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x128, .f32⟩
  | .hbm, ⟨23, _⟩ => ⟨S8192x128, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x128, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x128, .f32⟩
  | .hbm, ⟨38, _⟩ => ⟨S8192x128, .f32⟩
  | .hbm, ⟨39, _⟩ => ⟨S8192x8192, .f32⟩
  | .hbm, ⟨40, _⟩ => ⟨S8192x8192, .i1⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S1x8192, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call2_v0 : Ref sig .tc := ⟨.hbm, 29, rfl⟩
abbrev main_call2_cst : Ref sig .tc := ⟨.hbm, 30, rfl⟩
abbrev main_call2_v1 : Ref sig .tc := ⟨.hbm, 31, rfl⟩
abbrev main_call2_v2 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192x8192 : S_.BroadcastsInDim S8192x8192 (![] : Fin 0 → Fin S8192x8192.rank)
  reducesTo_S8192x8192_S8192_d1 : S8192x8192.ReducesTo [1] S8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x8192_S_d0_1 : S8192x8192.ReducesTo [0, 1] S_
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.Spec.lean ====
/-
  The contrastive loss, written once over extended-real arrays.

  Three row-normalised copies of the inputs enter: `Z` (rows of the first input over their norm), `ZN` (the same rows
  under a looser clamp of the norm) and `ZP` (rows of the second input over their norm), each `8192 × 128`, and a
  boolean matrix `M` (`8192 × 8192`) of excluded pairs.

  * The denominator of row `q` is the sum over the columns `k` not excluded of `exp (2 · ⟨ZN q, ZN k⟩)`.
    One program scales the left factor by `2` and zeroes excluded terms by a choice (`denScaled`); the other divides the
    inner product by `1/2` and multiplies by the negated mask read as `0` or `1` (`denMasked`).
  * One program returns `-(Σ_d (Σ_i Z i d)(Σ_j ZP j d)) / 4096 + Σ_q log (den q)` (`lossFolded`); the other returns
    `(Σ_i Σ_j -log (exp (⟨Z i, ZP j⟩ / (1/2)) / den j)) / 8192` (`lossPairwise`).
  The law joining them is `-log (exp a / d) = -a + log d` for `d > 0` together with the bilinearity of the inner
  product; at a row whose every pair is excluded `d = 0` and both sides are `-∞`.
-/
import Idealize.ShloMosaic.PureOps.Ideal
import Idealize.ShloMosaic.PureOps.Ideal.Laws
import Idealize.ShloMosaic.Lib.ValueIdx

noncomputable section

open scoped BigOperators

namespace Cert.NtXent

open Idealize.ShloMosaic Idealize.ShloMosaic.ValueIdx

abbrev Rows := Fin 8192
abbrev Feat := Fin 128
/-- The shape of the inputs and of their normalised copies. -/
abbrev SRowsFeat : Shape := ⟨2, ![8192, 128]⟩
/-- The shape of the mask and of every pairwise matrix. -/
abbrev SPairs : Shape := ⟨2, ![8192, 8192]⟩

/-- The scalars both programs spell, as the words they print. -/
def half : EReal := Ideal.ofBits .f32 0x3F000000#32
def two : EReal := Ideal.ofBits .f32 0x40000000#32
def c4096 : EReal := Ideal.ofBits .f32 0x45800000#32
def c8192 : EReal := Ideal.ofBits .f32 0x46000000#32

/-- What the tiled region computes from its three operand arrays: for row `q`, the sum over the columns `k` whose
    mask word is zero of `exp ⟨A q, B k⟩`. -/
def regionDen (A B : SRowsFeat.Idx → EReal) (W : SPairs.Idx → BitVec 32) (q : Rows) : EReal :=
  ∑ k : Rows, if W (ix2 q k) = 0#32 then Ideal.exp (∑ d : Feat, A (ix2 q d) * B (ix2 k d)) else 0

/-- The denominator with the left factor scaled by `2` and excluded pairs dropped by a choice. -/
def denScaled (ZN : SRowsFeat.Idx → EReal) (M : SPairs.Idx → BitVec 1) (q : Rows) : EReal :=
  ∑ k : Rows, if M (ix2 q k) = 1#1 then 0 else Ideal.exp (∑ d : Feat, (ZN (ix2 q d) * two) * ZN (ix2 k d))

/-- The denominator with the inner product divided by `1/2` and the negated mask as a `0`/`1` factor. -/
def denMasked (ZN : SRowsFeat.Idx → EReal) (M : SPairs.Idx → BitVec 1) (q : Rows) : EReal :=
  ∑ k : Rows, (((~~~(M (ix2 q k))).toNat : ℝ) : EReal)
    * Ideal.exp (Ideal.div (∑ d : Feat, ZN (ix2 q d) * ZN (ix2 k d)) half)

/-- The loss with the numerator folded into two column sums. -/
def lossFolded (Z ZN ZP : SRowsFeat.Idx → EReal) (M : SPairs.Idx → BitVec 1) : EReal :=
  Ideal.div (-(∑ d : Feat, (∑ i : Rows, Z (ix2 i d)) * (∑ j : Rows, ZP (ix2 j d)))) c4096
    + ∑ q : Rows, Ideal.log (denScaled ZN M q)

/-- The loss summed pair by pair. -/
def lossPairwise (Z ZN ZP : SRowsFeat.Idx → EReal) (M : SPairs.Idx → BitVec 1) : EReal :=
  Ideal.div (∑ i : Rows, ∑ j : Rows,
      -(Ideal.log (Ideal.div (Ideal.exp (Ideal.div (∑ d : Feat, Z (ix2 i d) * ZP (ix2 j d)) half)) (denMasked ZN M j))))
    c8192

/-- An array all of whose entries are real numbers. -/
def RealValued {S : Shape} (A : S.Idx → EReal) : Prop := ∀ i, ∃ r : ℝ, A i = (r : EReal)

/-- A one-bit mask widened to a word is zero exactly when the bit is not set. -/
theorem setWidth_eq_zero_iff (b : BitVec 1) : b.setWidth 32 = 0#32 ↔ ¬ b = 1#1 := by
  revert b; decide

/-- The region, fed the scaled rows, the rows and the widened mask, computes the scaled denominator. -/
theorem regionDen_eq_denScaled (ZN : SRowsFeat.Idx → EReal) (M : SPairs.Idx → BitVec 1) (q : Rows) :
    regionDen (fun i => ZN i * two) ZN (fun i => (M i).setWidth 32) q = denScaled ZN M q := by
  unfold regionDen denScaled
  refine Finset.sum_congr rfl fun k _ => ?_
  by_cases h : M (ix2 q k) = 1#1
  · rw [if_pos h, if_neg ((setWidth_eq_zero_iff _).not.mpr (not_not.mpr h))]
  · rw [if_neg h, if_pos ((setWidth_eq_zero_iff _).mpr h)]

end Cert.NtXent

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.RegionPayload.lean ====
/-
  The arithmetic of one grid point, read at a row of the tile.
-/
import proofs.«407364_j15762529976387_3_alg».proof.Proof.Gen.KernelIdeal.Skeleton
import proofs.«407364_j15762529976387_3_alg».proof.Proof.LibColumn
import Idealize.ShloMosaic.Lib.ValueIdx
import Idealize.ShloMosaic.Lib.Pipeline.Value
import Idealize.ShloMosaic.PureOps.Ideal.Laws

noncomputable section

open scoped BigOperators

namespace Cert.KernelIdeal.Region

open Cert.KernelIdeal Cert.KernelIdeal.Gen Idealize.ShloMosaic Idealize.ShloMosaic.ValueIdx

/-! ## The mask comparison at a word -/

/-- The comparison "differs from the zero word" gives the bit `0` at the zero word … -/
private theorem cmpi_ne_zero_of_eq {w : BitVec 32} (h : w = 0#32) : IntOp.cmpi .ne w 0#32 = 0#1 := by
  subst h; rfl

/-- … and the bit `1` at every other word. -/
private theorem cmpi_ne_zero_of_ne {w : BitVec 32} (h : ¬w = 0#32) : IntOp.cmpi .ne w 0#32 = 1#1 := by
  have hb : (w != 0#32) = true := bne_iff_ne.mpr h
  show BitVec.ofBool (w != 0#32) = 1#1
  rw [hb]; rfl

/-! ## The product of the left block with the transposed right block -/

/-- The left operand's row coordinate is the output's row. -/
private theorem lhs_axis0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
/-- The left operand's column coordinate is the contraction coordinate. -/
private theorem lhs_axis1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
/-- The right operand's row coordinate is the contraction coordinate. -/
private theorem rhs_axis0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
/-- The right operand's column coordinate is the output's column. -/
private theorem rhs_axis1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The matrix product into the zero accumulator, at `(r, k)`: the inner product of row `r` of the left factor with
    column `k` of the right factor. -/
private theorem product_apply (a : FVec Ideal S1024x128 .bf16) (b : FVec Ideal S128x1024 .bf16) (r k : Fin 1024) :
    matmul dot_S1024x128_S128x1024_S1024x1024_1_0_0_1_n_n none a b (constant (F := Ideal) S1024x1024 .f32 0x00000000#32) (ix2 r k)
      = ∑ d : Fin 128, a (ix2 r d) * b (ix2 d k) := by
  simp only [matmul]
  rw [Ideal.matmul_constant_zero_apply, ← Equiv.sum_comp (contrEquiv1 dot_S1024x128_S128x1024_S1024x1024_1_0_0_1_n_n 128 rfl rfl).symm]
  refine Finset.sum_congr rfl fun d _ => ?_
  have hd := contrEquiv1_symm_val dot_S1024x128_S128x1024_S1024x1024_1_0_0_1_n_n 128 rfl rfl d
  have el : dot_S1024x128_S128x1024_S1024x1024_1_0_0_1_n_n.lhsIdx (ix2 r k) ((contrEquiv1 dot_S1024x128_S128x1024_S1024x1024_1_0_0_1_n_n 128 rfl rfl).symm d) = ix2 r d := funext fun c => Fin.ext (by
    match c with
    | ⟨0, _⟩ => exact lhs_axis0 _ _
    | ⟨1, _⟩ => exact (lhs_axis1 _ _).trans hd)
  have er : dot_S1024x128_S128x1024_S1024x1024_1_0_0_1_n_n.rhsIdx (ix2 r k) ((contrEquiv1 dot_S1024x128_S128x1024_S1024x1024_1_0_0_1_n_n 128 rfl rfl).symm d) = ix2 d k := funext fun c => Fin.ext (by
    match c with
    | ⟨0, _⟩ => exact (rhs_axis0 _ _).trans hd
    | ⟨1, _⟩ => exact rhs_axis1 _ _)
  rw [el, er]

/-- The transposed right block at `(d, k)` is the block at `(k, d)`. -/
private theorem transposed_apply (x : FVec Ideal S1024x128 .bf16) (d : Fin 128) (k : Fin 1024) :
    transpose S128x1024 [1, 0] x transposes_S1024x128_p1_0_S128x1024 (ix2 d k) = x (ix2 k d) :=
  transpose_apply [1, 0] x transposes_S1024x128_p1_0_S128x1024 (ix2 d k) (ix2 k d) fun b => by
    match b with
    | ⟨0, _⟩ => rfl
    | ⟨1, _⟩ => rfl

/-! ## The two stored values -/

/-- The value stored at the first step of a row block: zero everywhere. -/
theorem reset_apply (r : Fin 1024) : (k0_pay1 (F := Ideal)) (ix1 r) = 0 := by
  unfold k0_pay1
  exact Ideal.ofBits_zero_f32

/-- The value stored at every step: the running row sums plus, for row `r` of the tile, the sum over the tile's
    columns whose mask word is zero of the exponential of the inner product of row `r` of the left block with row `k` of
    the right block. -/
theorem step_apply (x0 x1 : Vec Ideal S1024x128 .bf16) (x2 : Vec Ideal S1024x1024 .i32) (acc : Vec Ideal S1024 .f32)
    (r : Fin 1024) :
    k0_pay2 (F := Ideal) x0 x1 x2 acc (ix1 r)
      = acc (ix1 r) + ∑ k : Fin 1024,
          if x2 (ix2 r k) = 0#32 then Ideal.exp (∑ d : Fin 128, x0 (ix2 r d) * x1 (ix2 k d)) else 0 := by
  unfold k0_pay2
  dsimp only
  refine (addf_apply _ _ (ix1 r)).trans ?_
  refine congrArg₂ (fun u v : EReal => u + v) (congrFun (shapeCast_self acc shapeCasts_S1024_S1024) (ix1 r)) ?_
  refine (Cert.LibColumn.sumAxis1_apply _ _ _ _ _ r).trans (Finset.sum_congr rfl fun k _ => ?_)
  refine (select_apply _ _ _ (ix2 r k)).trans ?_
  -- the product at `(r, k)`: both shape casts are identities, the right factor is read transposed
  have hp : matmul (φ₁ := .bf16) (φ₂ := .bf16) dot_S1024x128_S128x1024_S1024x1024_1_0_0_1_n_n none
        (shapeCast (α := Ideal .bf16) S1024x128 x0 shapeCasts_S1024x128_S1024x128)
        (transpose (α := Ideal .bf16) S128x1024 [1, 0]
          (shapeCast (α := Ideal .bf16) S1024x128 x1 shapeCasts_S1024x128_S1024x128)
          transposes_S1024x128_p1_0_S128x1024)
        (constant (F := Ideal) S1024x1024 .f32 0x00000000#32) (ix2 r k)
      = ∑ d : Fin 128, x0 (ix2 r d) * x1 (ix2 k d) := by
    refine (product_apply _ _ r k).trans (Finset.sum_congr rfl fun d _ => ?_)
    refine congrArg₂ (fun u v : EReal => u * v)
      (congrFun (shapeCast_self x0 shapeCasts_S1024x128_S1024x128) (ix2 r d)) ?_
    exact (transposed_apply _ d k).trans (congrFun (shapeCast_self x1 shapeCasts_S1024x128_S1024x128) (ix2 k d))
  by_cases hz : x2 (ix2 r k) = 0#32
  · -- a zero mask word: the comparison's bit is 0, the select keeps the exponential
    rw [if_pos hz]
    have hc : cmpi .ne x2 (constantI S1024x1024 32 0#32) (ix2 r k) = 0#1 := cmpi_ne_zero_of_eq hz
    refine (congrArg (fun c => Scalar.select c _ _) hc).trans ?_
    refine (select_zero _ _).trans ?_
    exact congrArg Ideal.exp hp
  · -- any other mask word: the bit is 1, the select takes the broadcast zero
    rw [if_neg hz]
    have hc : cmpi .ne x2 (constantI S1024x1024 32 0#32) (ix2 r k) = 1#1 := cmpi_ne_zero_of_ne hz
    refine (congrArg (fun c => Scalar.select c _ _) hc).trans ?_
    refine (select_one _ _).trans ?_
    exact Ideal.ofBits_zero_f32

end Cert.KernelIdeal.Region

end
-- ==== Proof.Region.lean ====
/-
  What the tiled region leaves in its result array.

  The region walks an 8 × 8 grid of tiles: tile `t` pairs row block `t / 8` (1024 rows of the first operand and of the
  mask) with column block `t % 8` (1024 rows of the second operand, 1024 columns of the mask). A row block's partial
  sums are carried from tile to tile: set to zero at the first column block, increased at every column block by the
  tile's own row sums, and written to the result after the eighth. So after column block `i` the carried value at row
  `r` of row block `j` is the sum, over the columns `0 … 1024 (i + 1) - 1` whose mask word is zero, of the
  exponential of the inner product of row `1024 j + r` with that column's row; after the eighth column block that is
  the sum over all 8192 columns. The eight row blocks tile the result array.
-/
import proofs.«407364_j15762529976387_3_alg».proof.Proof.Gen.KernelIdeal.Frame
import proofs.«407364_j15762529976387_3_alg».proof.Proof.Spec
import proofs.«407364_j15762529976387_3_alg».proof.Proof.RegionPayload
import Idealize.ShloMosaic.Lib.Pipeline.Value

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx Cert.NtXent
open Idealize.ShloMosaic.Pipeline (Dat)

/-! ## What one tile's step stores -/

section pieces

variable {F : FTy → Type} [FloatOps F]

private theorem hz1 : (![0] : Fin 1 → Nat) = fun _ => 0 := funext fun a => by fin_cases a; rfl
private theorem hz2 : (![0, 0] : Fin 2 → Nat) = fun _ => 0 := funext fun a => by fin_cases a <;> rfl

/-- At a later column block the step reads the three tiles and the carried sums whole and stores the updated sums
    over the whole carried block. -/
private theorem piece_B (c : Dev nD) (i : grid0.Coords) (a2 : Memref sig .tc .vmem S1024x128 .bf16) (h2 : a2.IsWhole)
    (a3 : Memref sig .tc .vmem S1024x128 .bf16) (h3 : a3.IsWhole) (a4 : Memref sig .tc .vmem S1024x1024 .i32)
    (h4 : a4.IsWhole) (a5 : Memref sig .tc .vmem S1024 .f32) (h5 : a5.IsWhole) (hc : ¬cond0_0 i)
    (x0 x1 : Vec F S1024x128 .bf16) (x2 : Vec F S1024x1024 .i32) (xo : Vec F S1024 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz1]
  simp only [View.readAt_eq_ld, h2.read_unread, h3.read_unread, h4.read_unread, h5.read_unread,
    View.ld_unit_zero (S := S1024x128) hz2, View.ld_unit_zero (S := S1024x1024) hz2, View.ld_unit_zero (S := S1024) hz1]

/-- At the first column block the step first stores zeros over the whole carried block, reads them back, and then
    stores the update of those zeros. -/
private theorem piece_A (c : Dev nD) (i : grid0.Coords) (a2 : Memref sig .tc .vmem S1024x128 .bf16) (h2 : a2.IsWhole)
    (a3 : Memref sig .tc .vmem S1024x128 .bf16) (h3 : a3.IsWhole) (a4 : Memref sig .tc .vmem S1024x1024 .i32)
    (h4 : a4.IsWhole) (a5 : Memref sig .tc .vmem S1024 .f32) (h5 : a5.IsWhole) (hc : cond0_0 i)
    (x0 x1 : Vec F S1024x128 .bf16) (x2 : Vec F S1024x1024 .i32) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1024) hz1, View.readCov_unit_zero (S := S1024) _ hz1]
  simp only [View.readAt_eq_ld, h2.read_unread, h3.read_unread, h4.read_unread,
    View.ld_unit_zero (S := S1024x128) hz2, View.ld_unit_zero (S := S1024x1024) hz2]

end pieces

/-! ## One term of a row's sum, and sums over column blocks -/

/-- The term of row `q` at column `k`, rows and columns numbered by naturals: the exponential of the inner product of
    row `q` of `A` with row `k` of `B` if the mask word at `(q, k)` is zero, else zero; zero outside the arrays. -/
private def term (A B : Vec Ideal S8192x128 .bf16) (W : Vec Ideal S8192x8192 .i32) (q k : ℕ) : EReal :=
  if h : q < 8192 ∧ k < 8192 then
    (if W (ix2 ⟨q, h.1⟩ ⟨k, h.2⟩) = 0#32 then Ideal.exp (∑ d : Fin 128, A (ix2 ⟨q, h.1⟩ d) * B (ix2 ⟨k, h.2⟩ d)) else 0)
  else 0

/-- A row's whole sum is the sum of its terms over the columns `0 … 8191`. -/
private theorem regionDen_eq (A B : Vec Ideal S8192x128 .bf16) (W : Vec Ideal S8192x8192 .i32) (q : Fin 8192) (n : ℕ)
    (hq : q.val = n) : regionDen A B W q = ∑ k ∈ Finset.range 8192, term A B W n k := by
  subst hq
  unfold regionDen
  rw [Finset.sum_range]
  refine Finset.sum_congr rfl fun k _ => ?_
  unfold term
  rw [dif_pos ⟨q.isLt, k.isLt⟩]

/-- A sum over `n` consecutive blocks of `b` indices each is the sum over the first `b * n` indices. -/
private theorem sum_blocks {M : Type} [AddCommMonoid M] (f : ℕ → M) (b : ℕ) :
    ∀ n : ℕ, ∑ i ∈ Finset.range n, ∑ k ∈ Finset.range b, f (b * i + k) = ∑ k ∈ Finset.range (b * n), f k
  | 0 => by rw [Finset.sum_range_zero, Nat.mul_zero, Finset.sum_range_zero]
  | n + 1 => by rw [Finset.sum_range_succ, sum_blocks f b n, Nat.mul_succ, Finset.sum_range_add]

/-! ## The tiles read off the arrays -/

variable (m : (ℓ : Loc nD τ sig) → Buf (Elt Ideal) ℓ)

/-- The three operand arrays as the region finds them, and the three tiles staged at a grid point. -/
private abbrev arrA (c : Dev nD) : Vec Ideal S8192x128 .bf16 := V m c main_v20
private abbrev arrB (c : Dev nD) : Vec Ideal S8192x128 .bf16 := V m c main_v21
private abbrev arrW (c : Dev nD) : Vec Ideal S8192x8192 .i32 := V m c main_v22
private abbrev blkA (c : Dev nD) (t : Fin cfg0.N) : Vec Ideal S1024x128 .bf16 := iblk m c 0 t
private abbrev blkB (c : Dev nD) (t : Fin cfg0.N) : Vec Ideal S1024x128 .bf16 := iblk m c 1 t
private abbrev blkW (c : Dev nD) (t : Fin cfg0.N) : Vec Ideal S1024x1024 .i32 := iblk m c 2 t

/-- Tile `t` takes row block `t / 8` of the first operand, of the mask and of the result, and column block `t % 8` of
    the second operand and of the mask: the index maps, decided over the 64 grid points. -/
private theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 1) = t.val / 8 :=
  (by decide +kernel : ∀ t : Fin grid0.N, _)

/-- Row `r` of the first tile is row `1024 (t / 8) + r` of the first operand. -/
private theorem blkA_apply (c : Dev nD) (t : Fin cfg0.N) (r : Fin 1024) (d : Fin 128)
    (hq : 1024 * (t.val / 8) + r.val < 8192) :
    blkA m c t (ix2 r d) = arrA m c (ix2 ⟨1024 * (t.val / 8) + r.val, hq⟩ d) := by
  obtain ⟨e0, e1, -⟩ := idx_facts t
  unfold blkA arrA iblk
  rw [View.read_apply]
  refine congrArg (V m c main_v20) (funext fun a => Fin.ext ?_)
  match a with
  | ⟨0, _⟩ => show win0_0.index t (0 : Fin 2) * 1024 + 1 * r.val = 1024 * (t.val / 8) + r.val; rw [e0]; omega
  | ⟨1, _⟩ => show win0_0.index t (1 : Fin 2) * 128 + 1 * d.val = d.val; rw [e1]; omega

/-- Row `k` of the second tile is row `1024 (t % 8) + k` of the second operand. -/
private theorem blkB_apply (c : Dev nD) (t : Fin cfg0.N) (k : Fin 1024) (d : Fin 128)
    (hk : 1024 * (t.val % 8) + k.val < 8192) :
    blkB m c t (ix2 k d) = arrB m c (ix2 ⟨1024 * (t.val % 8) + k.val, hk⟩ d) := by
  obtain ⟨-, -, e0, e1, -⟩ := idx_facts t
  unfold blkB arrB iblk
  rw [View.read_apply]
  refine congrArg (V m c main_v21) (funext fun a => Fin.ext ?_)
  match a with
  | ⟨0, _⟩ => show win0_1.index t (0 : Fin 2) * 1024 + 1 * k.val = 1024 * (t.val % 8) + k.val; rw [e0]; omega
  | ⟨1, _⟩ => show win0_1.index t (1 : Fin 2) * 128 + 1 * d.val = d.val; rw [e1]; omega

/-- Entry `(r, k)` of the mask tile is entry `(1024 (t / 8) + r, 1024 (t % 8) + k)` of the mask. -/
private theorem blkW_apply (c : Dev nD) (t : Fin cfg0.N) (r k : Fin 1024)
    (hq : 1024 * (t.val / 8) + r.val < 8192) (hk : 1024 * (t.val % 8) + k.val < 8192) :
    blkW m c t (ix2 r k) = arrW m c (ix2 ⟨1024 * (t.val / 8) + r.val, hq⟩ ⟨1024 * (t.val % 8) + k.val, hk⟩) := by
  obtain ⟨-, -, -, -, e0, e1, -⟩ := idx_facts t
  unfold blkW arrW iblk
  rw [View.read_apply]
  refine congrArg (V m c main_v22) (funext fun a => Fin.ext ?_)
  match a with
  | ⟨0, _⟩ => show win0_2.index t (0 : Fin 2) * 1024 + 1 * r.val = 1024 * (t.val / 8) + r.val; rw [e0]; omega
  | ⟨1, _⟩ => show win0_2.index t (1 : Fin 2) * 1024 + 1 * k.val = 1024 * (t.val % 8) + k.val; rw [e1]; omega

/-- The row sums a tile adds: over the tile's own 1024 columns, the terms of row `1024 (t / 8) + r`. -/
private theorem tile_sum (c : Dev nD) (t : Fin cfg0.N) (r : Fin 1024) :
    (∑ k : Fin 1024, if blkW m c t (ix2 r k) = 0#32
        then Ideal.exp (∑ d : Fin 128, blkA m c t (ix2 r d) * blkB m c t (ix2 k d)) else 0)
      = ∑ k ∈ Finset.range 1024, term (arrA m c) (arrB m c) (arrW m c) (1024 * (t.val / 8) + r.val) (1024 * (t.val % 8) + k) := by
  have hN : t.val < 64 := lt_of_lt_of_eq t.isLt (show cfg0.N = 64 from N_0)
  have hr : r.val < 1024 := r.isLt
  have hq : 1024 * (t.val / 8) + r.val < 8192 := by omega
  rw [Finset.sum_range]
  refine Finset.sum_congr rfl fun k _ => ?_
  have hk1 : k.val < 1024 := k.isLt
  have hk : 1024 * (t.val % 8) + k.val < 8192 := by omega
  have e : ∀ d : Fin 128, blkA m c t (ix2 r d) * blkB m c t (ix2 k d)
      = arrA m c (ix2 ⟨1024 * (t.val / 8) + r.val, hq⟩ d) * arrB m c (ix2 ⟨1024 * (t.val % 8) + k.val, hk⟩ d) :=
    fun d => by rw [blkA_apply m c t r d hq, blkB_apply m c t k d hk]
  unfold term
  rw [dif_pos ⟨hq, hk⟩, blkW_apply m c t r k hq hk, Finset.sum_congr rfl fun d _ => e d]

/-! ## The carried sums after each tile -/

/-- After tile `n` the carried value at row `r` of the row block is the sum of the terms of row `1024 (n / 8) + r` over
    the columns of the column blocks `0 … n % 8`: by induction on the tile, the first column block starting from zero
    and every later one adding its own columns to what the tile before left. -/
private theorem carried_apply (c : Dev nD) (n : ℕ) : ∀ (hn : n < cfg0.N) (r : Fin 1024),
    outsAt0 m c n hn (ix1 r)
      = ∑ i ∈ Finset.range (n % 8 + 1), ∑ k ∈ Finset.range 1024,
          term (arrA m c) (arrB m c) (arrW m c) (1024 * (n / 8) + r.val) (1024 * i + k) := by
  induction n using Nat.strong_induction_on with
  | _ n ih =>
    intro hn r
    have hN : cfg0.N = 64 := N_0
    by_cases h0 : n % 8 = 0
    · rw [outsAt0_A m c ⟨n, hn⟩ h0]
      refine (congrFun (piece_A (F := Ideal) c (grid0.coords ⟨n, hn⟩) (ms0_0 ⟨n, hn⟩) (hs0_0 ⟨n, hn⟩) (ms0_1 ⟨n, hn⟩)
        (hs0_1 ⟨n, hn⟩) (ms0_2 ⟨n, hn⟩) (hs0_2 ⟨n, hn⟩) (ms0_3 ⟨n, hn⟩) (hs0_3 ⟨n, hn⟩) ((hcond0_0 ⟨n, hn⟩).mpr h0)
        (blkA m c ⟨n, hn⟩) (blkB m c ⟨n, hn⟩) (blkW m c ⟨n, hn⟩)) (ix1 r)).trans ?_
      refine (step_apply (blkA m c ⟨n, hn⟩) (blkB m c ⟨n, hn⟩) (blkW m c ⟨n, hn⟩) (k0_pay1 (F := Ideal)) r).trans ?_
      rw [reset_apply, zero_add, tile_sum m c ⟨n, hn⟩ r, h0, Finset.sum_range_one]
    · have hB : ¬(⟨n, hn⟩ : Fin cfg0.N).val % 8 = 0 := h0
      rw [outsAt0_B m c ⟨n, hn⟩ hB]
      refine (congrFun (piece_B (F := Ideal) c (grid0.coords ⟨n, hn⟩) (ms0_0 ⟨n, hn⟩) (hs0_0 ⟨n, hn⟩) (ms0_1 ⟨n, hn⟩)
        (hs0_1 ⟨n, hn⟩) (ms0_2 ⟨n, hn⟩) (hs0_2 ⟨n, hn⟩) (ms0_3 ⟨n, hn⟩) (hs0_3 ⟨n, hn⟩)
        (fun h => hB ((hcond0_0 ⟨n, hn⟩).mp h))
        (blkA m c ⟨n, hn⟩) (blkB m c ⟨n, hn⟩) (blkW m c ⟨n, hn⟩)
        (outsAt0 m c (n - 1) (Nat.lt_of_le_of_lt (Nat.sub_le _ _) hn))) (ix1 r)).trans ?_
      refine (step_apply (blkA m c ⟨n, hn⟩) (blkB m c ⟨n, hn⟩) (blkW m c ⟨n, hn⟩)
        (outsAt0 m c (n - 1) (Nat.lt_of_le_of_lt (Nat.sub_le _ _) hn)) r).trans ?_
      rw [ih (n - 1) (by omega) (Nat.lt_of_le_of_lt (Nat.sub_le _ _) hn) r, tile_sum m c ⟨n, hn⟩ r,
        show (n - 1) / 8 = n / 8 by omega, show (n - 1) % 8 + 1 = n % 8 by omega,
        Finset.sum_range_succ (fun i => ∑ k ∈ Finset.range 1024,
          term (arrA m c) (arrB m c) (arrW m c) (1024 * (n / 8) + r.val) (1024 * i + k)) (n % 8)]

/-! ## From the row blocks to the result array -/

/-- What the last tile of a row block writes back is that row block of the whole sums: the write-back moves the whole
    carried block, all eight column blocks have been added, and row `r` of the block is row `1024 (t / 8) + r` of the
    result. -/
private theorem flushed_eq (c : Dev nD) (t : Fin cfg0.N) (hf : (cfg0.win 3).flush t = true) :
    (dats m 0 c).flushed 3 t
      = ((cfg0.win 3).blk t).view.read (Elt Ideal)
          (fun q => regionDen (V m c main_v20) (V m c main_v21) (V m c main_v22) (q 0)) := by
  have h7 : t.val % 8 = 7 := (flush0_3 t).mp hf
  have hN : t.val < 64 := lt_of_lt_of_eq t.isLt (show cfg0.N = 64 from N_0)
  obtain ⟨-, -, -, -, -, -, e0⟩ := idx_facts t
  show (cfg0.win 3).cut (grid0.coords t) ((dats m 0 c).after 3 t) = _
  rw [after0_3]
  funext y
  obtain ⟨r, rfl⟩ : ∃ r : Fin 1024, y = ix1 r := ⟨(y : S1024.Idx) 0, eq_ix1 (n := 1024) y⟩
  rw [View.read_apply]
  refine (carried_apply m c t.val t.isLt r).trans ?_
  rw [h7, sum_blocks _ 1024 8]
  exact (regionDen_eq (arrA m c) (arrB m c) (arrW m c) _ (1024 * (t.val / 8) + r.val) (by
    show win0_3.index t (0 : Fin 1) * 1024 + 1 * r.val = 1024 * (t.val / 8) + r.val
    rw [e0]; omega)).symm

/-- Row `q` of the result lies in the row block that the tile `8 (q / 1024) + 7` writes back. -/
private theorem covered (i : S8192.Idx) :
    ∃ t : Fin cfg0.N, (cfg0.win 3).flush t = true ∧ i ∈ ((cfg0.win 3).blk t).view.set := by
  have hi : (i 0).val < 8192 := (i 0).isLt
  have hN : cfg0.N = 64 := N_0
  have ht : 8 * ((i 0).val / 1024) + 7 < cfg0.N := by omega
  obtain ⟨-, -, -, -, -, -, e0⟩ := idx_facts ⟨8 * ((i 0).val / 1024) + 7, ht⟩
  refine ⟨⟨8 * ((i 0).val / 1024) + 7, ht⟩, (flush0_3 _).mpr (by show (8 * ((i 0).val / 1024) + 7) % 8 = 7; omega), ?_⟩
  show i ∈ ((View.whole main_v23).slice (win0_3.rect ⟨8 * ((i 0).val / 1024) + 7, ht⟩)).set
  rw [View.set_slice_whole, Rect.mem_set_unit]
  intro a
  match a with
  | ⟨0, _⟩ =>
    show win0_3.index ⟨8 * ((i 0).val / 1024) + 7, ht⟩ (0 : Fin 1) * 1024 ≤ (i 0).val
      ∧ (i 0).val < win0_3.index ⟨8 * ((i 0).val / 1024) + 7, ht⟩ (0 : Fin 1) * 1024 + 1024
    rw [e0]
    show (8 * ((i 0).val / 1024) + 7) / 8 * 1024 ≤ (i 0).val ∧ (i 0).val < (8 * ((i 0).val / 1024) + 7) / 8 * 1024 + 1024
    omega

/-- After the last grid point the result array holds, at row `q`, the sum over all columns whose mask word is zero of
    the exponential of the inner product of row `q` of the first operand with row `k` of the second. -/
theorem final (c : Dev nD) :
    (dats m 0 c).arrAt 3 cfg0.N
      = fun q => regionDen (V m c main_v20) (V m c main_v21) (V m c main_v22) (q 0) :=
  (dats m 0 c).arrAt_eq_of_cover 3 (fun q => regionDen (V m c main_v20) (V m c main_v21) (V m c main_v22) (q 0))
    (flushed_eq m c) covered

end Cert.KernelIdeal.Region

end
-- ==== Proof.KernelHost.lean ====
/-
  The host operations around the region: what the three operand arrays hold when the region is entered, and the scalar
  the lines after it compute from the region's result array.
-/
import proofs.«407364_j15762529976387_3_alg».proof.Proof.Gen.KernelIdeal.Frame
import proofs.«407364_j15762529976387_3_alg».proof.Proof.Gen.ReferenceIdeal.Read
import proofs.«407364_j15762529976387_3_alg».proof.Proof.Spec
import proofs.«407364_j15762529976387_3_alg».proof.Proof.LibColumn
import Idealize.ShloMosaic.Lib.Pipeline.Value
import Idealize.ShloMosaic.Lib.StableHlo.Run

noncomputable section

open scoped BigOperators

namespace Cert.KernelIdeal.HostValue

open Cert.KernelIdeal Cert.KernelIdeal.Gen Idealize.ShloMosaic Idealize.ShloMosaic.TcCoe Idealize.SL.Sem
open Idealize.ShloMosaic.ValueIdx Cert.NtXent
open Idealize.ShloMosaic.Pipeline (Dat)

/-! ## Sums read at an index -/

/-- A sum over the indices of a vector is the sum over its coordinate. -/
private theorem sum_idx1 {n : ℕ} (f : (⟨1, ![n]⟩ : Shape).Idx → EReal) :
    ∑ j : (⟨1, ![n]⟩ : Shape).Idx, f j = ∑ k : Fin n, f (ix1 k) :=
  Fintype.sum_equiv ⟨fun j => j 0, ix1, fun j => (eq_ix1 j).symm, fun _ => rfl⟩ _ _ fun j => congrArg f (eq_ix1 j)

/-- The sum of a matrix along its rows, started from the zero word, is at column `d` the sum of that column. -/
private theorem colSum_apply {a b : ℕ} (x : FVec Ideal ⟨2, ![a, b]⟩ .f32)
    (h' : (⟨2, ![a, b]⟩ : Shape).ReducesTo [0] (⟨1, ![b]⟩ : Shape))
    (h : (⟨2, ![a, b]⟩ : Shape).Reduces [0] (⟨1, ![b]⟩ : Shape)) (hu : 0 < S_.numel) (d : Fin b) :
    Host.reduceAdd x (constant (F := Ideal) S_ .f32 0x00000000#32) h' hu (ix1 d) = ∑ i : Fin a, x (ix2 i d) := by
  simp only [Host.reduceAdd, Ideal.hostReduceAdd_def]
  rw [Ideal.hostReduceAdd_single h' h, constant_apply, Ideal.ofBits_zero_f32, zero_add]
  exact Finset.sum_congr rfl fun k _ => congrArg x (Cert.LibColumn.lift_axis0 h d k)

/-- The sum of a vector into a scalar, started from the zero word, is the sum of its entries. -/
private theorem totalSum_apply {n : ℕ} (x : FVec Ideal ⟨1, ![n]⟩ .f32) (h' : (⟨1, ![n]⟩ : Shape).ReducesTo [0] S_)
    (hu : 0 < S_.numel) (j : S_.Idx) :
    Host.reduceAdd x (constant (F := Ideal) S_ .f32 0x00000000#32) h' hu j = ∑ k : Fin n, x (ix1 k) := by
  simp only [Host.reduceAdd, Ideal.hostReduceAdd_def]
  rw [Ideal.hostReduceAdd_total h' (fun b => b.elim0), constant_apply, Ideal.ofBits_zero_f32, zero_add]
  exact sum_idx1 x

/-- The folded numerator: the column sums of two matrices, multiplied feature by feature and summed, is the sum over
    the features of the product of the two column sums. -/
private theorem foldedSum_apply (z zp : FVec Ideal S8192x128 .f32) (h0 : S8192x128.ReducesTo [0] S128)
    (h1 : S128.ReducesTo [0] S_) (hu : 0 < S_.numel) (j : S_.Idx) :
    Host.reduceAdd (mulf (Host.reduceAdd z (constant (F := Ideal) S_ .f32 0x00000000#32) h0 hu)
        (Host.reduceAdd zp (constant (F := Ideal) S_ .f32 0x00000000#32) h0 hu))
        (constant (F := Ideal) S_ .f32 0x00000000#32) h1 hu j
      = ∑ d : Feat, (∑ i : Rows, z (ix2 i d)) * (∑ i : Rows, zp (ix2 i d)) := by
  rw [totalSum_apply]
  refine Finset.sum_congr rfl fun d _ => ?_
  rw [mulf_apply, colSum_apply z h0 (by decide), colSum_apply zp h0 (by decide)]

/-- The lines after the region, over any scalar `S` and any result array `R`: `-S / 4096` plus the sum of the
    logarithms of `R`. -/
private theorem tail_eval (S : FVec Ideal S_ .f32) (R : FVec Ideal S8192 .f32) (h' : S8192.ReducesTo [0] S_)
    (hu : 0 < S_.numel) :
    addf (Host.divf (Host.negf S) (constant (F := Ideal) S_ .f32 0x45800000#32))
        (Host.reduceAdd (Host.log R) (constant (F := Ideal) S_ .f32 0x00000000#32) h' hu)
      = fun j => Ideal.div (-(S j)) c4096 + ∑ q : Rows, Ideal.log (R (ix1 q)) := by
  funext j
  rw [addf_apply, totalSum_apply]
  rfl

variable (m : (ℓ : Loc nD τ sig) → Buf (Elt Ideal) ℓ)

/-! ## The operand arrays -/

/-- The first operand: the loosely clamped rows of the first input, each entry doubled. -/
theorem operand_scaled (c : Dev nD) :
    V m c main_v20 = fun i => Cert.ReferenceIdeal.Read.val_main_v18 (F := Ideal) (m ((c.tc : Thread nD τ).loc main_arg0)) i * two := by
  -- the array as the operations before the region compose it: the clamped rows times the broadcast scalar, reformatted
  have e : @Eq (S8192x128.Idx → EReal) (V m c main_v20)
      (truncf (F := Ideal) (s := S8192x128) (φ := .f32) .bf16
        (mulf (Cert.ReferenceIdeal.Read.val_main_v18 (F := Ideal) (m ((c.tc : Thread nD τ).loc main_arg0)))
          (broadcastInDim S8192x128 ![] bcast_S_S8192x128 (constant (F := Ideal) S_ .f32 0x40000000#32)))
        bitsLt_bf16_f32) := by
    dsimp only [Gen.V, Gen.V0]
    simp only [Gen.hostOps0, Gen.hostOps0_1, Gen.hostOps0_2, Gen.hostOps0_3, List.flatten_cons, List.flatten_nil,
      List.append_nil, List.cons_append, List.nil_append]
    after_results_simp <;> rfl
  refine e.trans ?_
  funext i
  -- a change of format is the identity on the extended reals, and the broadcast scalar is the word of `2`
  rw [truncf_apply, mulf_apply]
  rfl

/-- The second operand: the loosely clamped rows of the first input. -/
theorem operand_rows (c : Dev nD) :
    V m c main_v21 = Cert.ReferenceIdeal.Read.val_main_v18 (F := Ideal) (m ((c.tc : Thread nD τ).loc main_arg0)) := by
  have e : @Eq (S8192x128.Idx → EReal) (V m c main_v21)
      (truncf (F := Ideal) (s := S8192x128) (φ := .f32) .bf16
        (Cert.ReferenceIdeal.Read.val_main_v18 (F := Ideal) (m ((c.tc : Thread nD τ).loc main_arg0))) bitsLt_bf16_f32) := by
    dsimp only [Gen.V, Gen.V0]
    simp only [Gen.hostOps0, Gen.hostOps0_1, Gen.hostOps0_2, Gen.hostOps0_3, List.flatten_cons, List.flatten_nil,
      List.append_nil, List.cons_append, List.nil_append]
    after_results_simp <;> rfl
  refine e.trans ?_
  funext i
  rfl

/-- The third operand: the mask, each bit widened to a word. -/
theorem operand_mask (c : Dev nD) :
    V m c main_v22 = fun i => (m ((c.tc : Thread nD τ).loc main_arg3) i).setWidth 32 := by
  have e : @Eq (S8192x8192.Idx → BitVec 32) (V m c main_v22)
      (extui 32 (m ((c.tc : Thread nD τ).loc main_arg3)) natLt_1_32) := by
    dsimp only [Gen.V, Gen.V0]
    simp only [Gen.hostOps0, Gen.hostOps0_1, Gen.hostOps0_2, Gen.hostOps0_3, List.flatten_cons, List.flatten_nil,
      List.append_nil, List.cons_append, List.nil_append]
    after_results_simp <;> rfl
  refine e.trans ?_
  funext i
  rfl

/-! ## The lines after the region -/

/-- The scalar the lines after the region negate: the sum over the features of the product of the column sums of the
    two inputs' normalised rows. -/
private theorem folded_scalar (c : Dev nD) (j : S_.Idx) :
    (V m c main_v17 : S_.Idx → EReal) j
      = ∑ d : Feat,
          (∑ i : Rows, Cert.ReferenceIdeal.Read.val_main_v4 (F := Ideal) (m ((c.tc : Thread nD τ).loc main_arg0)) (ix2 i d))
            * (∑ i : Rows, Cert.ReferenceIdeal.Read.val_main_v9 (F := Ideal) (m ((c.tc : Thread nD τ).loc main_arg1)) (ix2 i d)) := by
  have e : @Eq (S_.Idx → EReal) (V m c main_v17)
      (Host.reduceAdd (mulf
          (Host.reduceAdd (Cert.ReferenceIdeal.Read.val_main_v4 (F := Ideal) (m ((c.tc : Thread nD τ).loc main_arg0)))
            (constant (F := Ideal) S_ .f32 0x00000000#32) reducesTo_S8192x128_S128_d0 h_S_)
          (Host.reduceAdd (Cert.ReferenceIdeal.Read.val_main_v9 (F := Ideal) (m ((c.tc : Thread nD τ).loc main_arg1)))
            (constant (F := Ideal) S_ .f32 0x00000000#32) reducesTo_S8192x128_S128_d0 h_S_))
        (constant (F := Ideal) S_ .f32 0x00000000#32) reducesTo_S128_S_d0 h_S_) := by
    dsimp only [Gen.V, Gen.V0]
    simp only [Gen.hostOps0, Gen.hostOps0_1, Gen.hostOps0_2, Gen.hostOps0_3, List.flatten_cons, List.flatten_nil,
      List.append_nil, List.cons_append, List.nil_append]
    after_results_simp <;> rfl
  rw [e]
  exact foldedSum_apply _ _ _ _ _ j

/-- The lines after the region: minus the sum over the features of the product of the two inputs' column sums, over
    `4096`, plus the sum of the logarithms of the region's result array. -/
theorem tail_result (c : Dev nD) :
    Pipeline.afterTail₀ cfgs (dats m) 0 (V0 m) [hostOps1] c main_v28
      = fun _ => Ideal.div (-(∑ d : Feat,
            (∑ i : Rows, Cert.ReferenceIdeal.Read.val_main_v4 (F := Ideal) (m ((c.tc : Thread nD τ).loc main_arg0)) (ix2 i d))
              * (∑ j : Rows, Cert.ReferenceIdeal.Read.val_main_v9 (F := Ideal) (m ((c.tc : Thread nD τ).loc main_arg1)) (ix2 j d)))) c4096
          + ∑ q : Rows, Ideal.log ((dats m 0 c).arrAt 3 cfg0.N (ix1 q)) := by
  -- what the region leaves: its result array where the lines read it, the earlier contents at the folded scalar
  have h23 : Pipeline.withArrays (cfgs 0).spec c (V0 m c) (fun w => (dats m 0 c).arrAt w (cfgs 0).N)
      (Proc.devRef .tc main_v23) = (dats m 0 c).arrAt 3 cfg0.N :=
    Pipeline.withArrays_arr spec0 launch0.win.arr_inj c _ _ 3
  have h17 : Pipeline.withArrays (cfgs 0).spec c (V0 m c) (fun w => (dats m 0 c).arrAt w (cfgs 0).N)
      (Proc.devRef .tc main_v17) = V m c main_v17 :=
    Pipeline.withArrays_of_ne _ c (V0 m c) _ main_v17 (by exact (by decide : ∀ w, Pipeline.arrRef spec0 w ≠ main_v17))
  unfold Pipeline.afterTail₀
  show StableHlo.after hostOps1 _ (Proc.devRef .tc main_v28) = _
  after_results
  rw [h23, h17]
  refine (tail_eval (V m c main_v17) ((dats m 0 c).arrAt 3 cfg0.N) reducesTo_S8192_S_d0 h_S_).trans ?_
  funext j
  rw [folded_scalar m c j]

end Cert.KernelIdeal.HostValue

end
-- ==== Proof.KernelValue.lean ====
/-
  The idealized kernel's run with its scalar result named: the folded loss of the three normalised arrays.

  The lines after the region compute `-(Σ_d (Σ_i z i d)(Σ_j zp j d)) / 4096 + Σ_q log (den q)` from the region's result
  array `den`; the region computes `den q` as the sum over the unmasked columns `k` of `exp ⟨2·zn q, zn k⟩` from the
  three operand arrays the lines before it wrote.
-/
import proofs.«407364_j15762529976387_3_alg».proof.Proof.Gen.KernelIdeal.Frame
import proofs.«407364_j15762529976387_3_alg».proof.Proof.Spec
import proofs.«407364_j15762529976387_3_alg».proof.Proof.Region
import proofs.«407364_j15762529976387_3_alg».proof.Proof.KernelHost

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Cert.NtXent
open Idealize.ShloMosaic.Pipeline (Dat)

variable (m : (ℓ : Loc nD τ sig) → Buf (Elt Ideal) ℓ) (ρ : Dev nD → PrngReg)

/-- The kernel's scalar as a function of its argument arrays. -/
def loss (c : Dev nD) : EReal :=
  lossFolded (Cert.ReferenceIdeal.Read.val_main_v4 (F := Ideal) (m ((c.tc : Thread nD τ).loc main_arg0)))
    (Cert.ReferenceIdeal.Read.val_main_v18 (F := Ideal) (m ((c.tc : Thread nD τ).loc main_arg0)))
    (Cert.ReferenceIdeal.Read.val_main_v9 (F := Ideal) (m ((c.tc : Thread nD τ).loc main_arg1)))
    (m ((c.tc : Thread nD τ).loc main_arg3))

/-- Row `q` of the region's result array is the scaled denominator of row `q`. -/
theorem den_eq (c : Dev nD) (q : Rows) :
    (dats m 0 c).arrAt 3 cfg0.N (ix1 q)
      = denScaled (Cert.ReferenceIdeal.Read.val_main_v18 (F := Ideal) (m ((c.tc : Thread nD τ).loc main_arg0)))
          (m ((c.tc : Thread nD τ).loc main_arg3)) q := by
  rw [Region.final m c]
  show regionDen (V m c main_v20) (V m c main_v21) (V m c main_v22) q = _
  rw [HostValue.operand_scaled m c, HostValue.operand_rows m c, HostValue.operand_mask m c]
  exact regionDen_eq_denScaled _ _ q

/-- What the program's last line writes. -/
theorem result_eq (c : Dev nD) :
    Pipeline.afterTail₀ cfgs (dats m) 0 (V0 m) [hostOps1] c main_v28 = fun _ => loss m c := by
  refine (HostValue.tail_result m c).trans ?_
  funext _
  unfold loss lossFolded
  simp only [den_eq m c]

/-- Every weakly fair execution terminates with the result at the folded loss and the arguments unchanged. -/
theorem run : θ_run defs (onTc (τ := τ) (main (F := Ideal))) ⟨m, fun _ => 0, ρ⟩ (fun r => ∀ c : Dev nD,
      r.2.mem ((c.tc : Thread nD τ).loc main_v28) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v28 (Pipeline.mem_restRefs_of main_v28 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.RefSide.lean ====
/-
  The reference program's result, read index by index at the exact instance: it is the pairwise loss of the three
  normalised arrays its own first stages compute.
-/
import proofs.«407364_j15762529976387_3_alg».proof.Proof.Gen.ReferenceIdeal.Run
import proofs.«407364_j15762529976387_3_alg».proof.Proof.Gen.ReferenceIdeal.Read
import proofs.«407364_j15762529976387_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.NtXent

/-! ## The index maps of the program at an index given by coordinates -/

/-- The left operand of the first inner product at pair `(i, j)`, feature `d`, is read at `(i, d)`. -/
private theorem lidx10 (i j : Fin 8192) (d : Fin 128) : lidx_main_v10 (ix2 i j) d = ix2 i d :=
  funext fun a => Fin.ext (by match a with | ⟨0, _⟩ => rfl | ⟨1, _⟩ => rfl)

/-- The right operand of the first inner product at pair `(i, j)`, feature `d`, is read at `(j, d)`. -/
private theorem ridx10 (i j : Fin 8192) (d : Fin 128) : ridx_main_v10 (ix2 i j) d = ix2 j d :=
  funext fun a => Fin.ext (by match a with | ⟨0, _⟩ => rfl | ⟨1, _⟩ => rfl)

/-- The left operand of the second inner product at pair `(q, k)`, feature `d`, is read at `(q, d)`. -/
private theorem lidx19 (q k : Fin 8192) (d : Fin 128) : lidx_main_v19 (ix2 q k) d = ix2 q d :=
  funext fun a => Fin.ext (by match a with | ⟨0, _⟩ => rfl | ⟨1, _⟩ => rfl)

/-- The right operand of the second inner product at pair `(q, k)`, feature `d`, is read at `(k, d)`. -/
private theorem ridx19 (q k : Fin 8192) (d : Fin 128) : ridx_main_v19 (ix2 q k) d = ix2 k d :=
  funext fun a => Fin.ext (by match a with | ⟨0, _⟩ => rfl | ⟨1, _⟩ => rfl)

/-- The row sum at `q` reads the summand at `(q, k)`. -/
private theorem idx26 (q k : Fin 8192) : idx_main_v26 (ix1 q) k = ix2 q k :=
  funext fun a => Fin.ext (by match a with | ⟨0, _⟩ => rfl | ⟨1, _⟩ => rfl)

/-- The row of sums broadcast over the pairs is read, at pair `(i, j)`, at `j`. -/
private theorem idx27_28 (i j : Fin 8192) : idx_main_v27 (idx_main_v28 (ix2 i j)) = ix1 j :=
  funext fun a => Fin.ext (by match a with | ⟨0, _⟩ => rfl)

/-! ## The denominator -/

/-- The reference's row sum at `q` is the masked denominator of row `q`: the initial value is zero, and each summand
    is the negated mask bit read as `0` or `1` times the exponential of the inner product over one half. -/
private theorem den_eq (x0 : (⟨S8192x128, .f32⟩ : BufTy).Contents (Elt Ideal))
    (x3 : (⟨S8192x8192, .i1⟩ : BufTy).Contents (Elt Ideal)) (q : Fin 8192) :
    val_main_v26 (F := Ideal) x0 x3 (ix1 q) = denMasked (val_main_v18 (F := Ideal) x0) x3 q := by
  rw [val_main_v26_apply, val_main_cst_4_apply, Ideal.ofBits_def, Ideal.ofBits_zero_f32, zero_add]
  unfold denMasked
  refine Finset.sum_congr rfl fun k _ => ?_
  rw [idx26, val_main_v25_apply, val_main_v21_apply, val_main_v20_apply, val_main_v24_apply, val_main_v23_apply,
    val_main_v19_apply, val_main_v22_apply, val_main_cst_3_apply]
  simp only [lidx19, ridx19]
  rfl

/-! ## One pair's term -/

/-- The reference's negated logarithm at pair `(i, j)`: minus the logarithm of the exponential of the inner product
    of row `i` of the first array with row `j` of the second over one half, divided by the denominator of row `j`. -/
private theorem term_eq (x0 x1 : (⟨S8192x128, .f32⟩ : BufTy).Contents (Elt Ideal))
    (x3 : (⟨S8192x8192, .i1⟩ : BufTy).Contents (Elt Ideal)) (i j : Fin 8192) :
    val_main_v31 (F := Ideal) x0 x1 x3 (ix2 i j)
      = -(Ideal.log (Ideal.div (Ideal.exp (Ideal.div
          (∑ d : Feat, val_main_v4 (F := Ideal) x0 (ix2 i d) * val_main_v9 (F := Ideal) x1 (ix2 j d)) half))
          (denMasked (val_main_v18 (F := Ideal) x0) x3 j))) := by
  rw [val_main_v31_apply, val_main_v30_apply, val_main_v29_apply, val_main_v13_apply, val_main_v12_apply,
    val_main_v10_apply, val_main_v11_apply, val_main_cst_1_apply, val_main_v28_apply, val_main_v27_apply,
    idx27_28, den_eq]
  simp only [lidx10, ridx10]
  rfl

/-- The reference's scalar result is the pairwise loss of its normalised arrays. -/
theorem result_eq (x0 x1 : (⟨S8192x128, .f32⟩ : BufTy).Contents (Elt Ideal)) (x3 : (⟨S8192x8192, .i1⟩ : BufTy).Contents (Elt Ideal)) :
    val_main_v33 (F := Ideal) x0 x1 x3
      = fun _ => lossPairwise (val_main_v4 (F := Ideal) x0) (val_main_v18 (F := Ideal) x0) (val_main_v9 (F := Ideal) x1) x3 := by
  funext i0
  rw [val_main_v33_apply, val_main_v32_apply, val_main_cst_5_apply, val_main_cst_6_apply, Ideal.ofBits_def,
    Ideal.ofBits_zero_f32, zero_add, ValueIdx.sum_idx2]
  unfold lossPairwise c8192
  rw [Ideal.hostDivf_def, Ideal.ofBits_def]
  refine congrArg (fun s => Ideal.div s _) ?_
  exact Finset.sum_congr rfl fun i _ => Finset.sum_congr rfl fun j _ => term_eq x0 x1 x3 i j

end Cert.ReferenceIdeal.RefValue

end
-- ==== Proof.Consts.lean ====
/-
  The scalar words of the two programs as the real numbers they denote: `1/2`, `2`, `4096`, `8192`, and the two
  clamps of a row's norm, of which only positivity matters.
-/
import proofs.«407364_j15762529976387_3_alg».proof.Proof.Spec

noncomputable section

namespace Cert.NtXent

open Idealize.ShloMosaic

theorem half_eq : half = ((1 / 2 : ℝ) : EReal) := by
  unfold half; simp [Ideal.ofBits, Ideal.ieee, -EReal.coe_mul]; norm_num

theorem two_eq : two = ((2 : ℝ) : EReal) := by
  unfold two; simp [Ideal.ofBits, Ideal.ieee, -EReal.coe_mul]; norm_num

theorem c4096_eq : c4096 = ((4096 : ℝ) : EReal) := by
  unfold c4096; simp [Ideal.ofBits, Ideal.ieee, -EReal.coe_mul]; norm_num

theorem c8192_eq : c8192 = ((8192 : ℝ) : EReal) := by
  unfold c8192; simp [Ideal.ofBits, Ideal.ieee, -EReal.coe_mul]; norm_num

/-- The tighter clamp of a norm is a positive real. -/
theorem clampTight_pos : ∃ r : ℝ, 0 < r ∧ Ideal.ofBits .f32 0x2B8CBCCC#32 = (r : EReal) := by
  refine ⟨_, ?_, by simp [Ideal.ofBits, Ideal.ieee, -EReal.coe_mul]; rfl⟩
  positivity

/-- The looser clamp of a norm is a positive real. -/
theorem clampLoose_pos : ∃ r : ℝ, 0 < r ∧ Ideal.ofBits .f32 0x322BCC77#32 = (r : EReal) := by
  refine ⟨_, ?_, by simp [Ideal.ofBits, Ideal.ieee, -EReal.coe_mul]; rfl⟩
  positivity

end Cert.NtXent

end
-- ==== Proof.Finite.lean ====
/-
  Finite inputs have real-valued normalised rows: a row of reals has a real, non-negative norm; clamped below by a
  positive real it is a positive real; and a real over a positive real is a real.
-/
import proofs.«407364_j15762529976387_3_alg».proof.Proof.Gen.ReferenceIdeal.Read
import proofs.«407364_j15762529976387_3_alg».proof.Pre_finite_inputs
import proofs.«407364_j15762529976387_3_alg».proof.Proof.Gen.Pre_finite_inputs
import proofs.«407364_j15762529976387_3_alg».proof.Proof.Spec
import proofs.«407364_j15762529976387_3_alg».proof.Proof.Consts
import Idealize.ShloMosaic.Lib.ReduceAll

noncomputable section

open scoped BigOperators

namespace Cert.NtXent

open Idealize.ShloMosaic Idealize.ShloMosaic.ValueIdx

/-- A finite sum of reals, taken among the extended reals, is the real sum. -/
private theorem sum_coe {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The larger of two reals, taken among the extended reals, is the real maximum. -/
private theorem max_coe (a b : ℝ) : max (a : EReal) (b : EReal) = ((max a b : ℝ) : EReal) := by
  rcases le_total a b with hab | hab
  · rw [max_eq_right hab, max_eq_right (EReal.coe_le_coe_iff.mpr hab)]
  · rw [max_eq_left hab, max_eq_left (EReal.coe_le_coe_iff.mpr hab)]

/-- A real `a` over the norm of a row of reals `r`, the norm clamped below by a positive real `e`, is a real: the sum of
    squares is a non-negative real, so its root is one, the maximum with `e` is positive, and the quotient is real. -/
private theorem quotient_real (a : ℝ) (r : Fin 128 → ℝ) (e : ℝ) (he : 0 < e) :
    ∃ q : ℝ, Ideal.div (a : EReal)
      (max (Ideal.sqrt (0 + ∑ k : Fin 128, (r k : EReal) * (r k : EReal))) (e : EReal)) = (q : EReal) := by
  have hs : (0 : EReal) + ∑ k : Fin 128, (r k : EReal) * (r k : EReal) = ((∑ k : Fin 128, r k * r k : ℝ) : EReal) := by
    rw [zero_add, ← sum_coe]
    exact Finset.sum_congr rfl fun k _ => (EReal.coe_mul _ _).symm
  have hnn : 0 ≤ ∑ k : Fin 128, r k * r k := Finset.sum_nonneg fun k _ => mul_self_nonneg _
  have hp : 0 < max (Real.sqrt (∑ k : Fin 128, r k * r k)) e := lt_max_of_lt_right he
  rw [hs, Ideal.sqrt_coe, if_neg (not_lt.mpr hnn), max_coe, Ideal.div_coe hp.ne', ← EReal.coe_mul]
  exact ⟨_, rfl⟩

/-- An extended real whose absolute value `max x (-x)` lies below `+∞` is a real. -/
private theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The word of `+∞`. -/
private theorem inf_word : Ideal.ofBits .f32 0x7F800000#32 = ⊤ := by
  simp [Ideal.ofBits, Ideal.ieee]

/-- An array whose every absolute value compares below the word of `+∞` is an array of reals. -/
private theorem real_of_all (x : FVec Ideal SRowsFeat .f32)
    (h : ∀ i, FloatOps.cmpf .olt (FloatOps.hostAbsf (x i)) (FloatOps.ofBits (F := Ideal) .f32 0x7F800000#32) = 1#1) :
    RealValued x := by
  intro i
  have hi := h i
  rw [Ideal.cmpf_def, Ideal.ofBits_def, inf_word] at hi
  refine real_of_abs_lt_top (x i) ?_
  by_contra hc
  refine absurd hi ?_
  show BitVec.ofBool (decide (max (x i) (-(x i)) < ⊤)) ≠ 1#1
  rw [decide_eq_false hc]
  decide

/-- The precondition, all ones, says every entry of both float inputs is a real number. -/
theorem inputs_real (x0 x1 : FVec Ideal SRowsFeat .f32) (x2 : IVec (⟨1, ![8192]⟩ : Shape) 32) (x3 : IVec SPairs 1)
    (h : Cert.Pre_finite_inputs.fn (F := Ideal) x0 x1 x2 x3 = fun _ => 1#1) : RealValued x0 ∧ RealValued x1 := by
  -- the result of the reduction over both axes has one index
  haveI : Subsingleton Cert.Pre_finite_inputs.S_.Idx := ⟨fun a b => funext fun d => d.elim0⟩
  have h0 := congrFun h ValueIdx.ix0
  dsimp only [Cert.Pre_finite_inputs.fn] at h0
  obtain ⟨ha, hb⟩ := IntOp.andi_eq_one.1 h0
  refine ⟨real_of_all x0 fun i => ?_, real_of_all x1 fun i => ?_⟩
  · exact Host.reduce_andi_all _ _ _ _ _ ha i
  · exact Host.reduce_andi_all _ _ _ _ _ hb i

open Cert.ReferenceIdeal.Read in
/-- Rows of reals over their norm clamped at the tighter positive bound are rows of reals. -/
theorem rowsTight_real (x0 : FVec Ideal SRowsFeat .f32) (h : RealValued x0) :
    RealValued (Cert.ReferenceIdeal.Read.val_main_v4 (F := Ideal) x0) := by
  choose r hr using h
  obtain ⟨e, he, hE⟩ := clampTight_pos
  intro i
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, Ideal.hostDivf_def, Ideal.hostUnary_sqrt_def, Ideal.maximumf_def, Ideal.mulf_def,
    Ideal.ofBits_def, Ideal.ofBits_zero_f32, hE, hr]
  exact quotient_real _ _ e he

open Cert.ReferenceIdeal.Read in
/-- The same at the looser bound. -/
theorem rowsLoose_real (x0 : FVec Ideal SRowsFeat .f32) (h : RealValued x0) :
    RealValued (Cert.ReferenceIdeal.Read.val_main_v18 (F := Ideal) x0) := by
  choose r hr using h
  obtain ⟨e, he, hE⟩ := clampLoose_pos
  intro i
  rw [val_main_v18_apply, val_main_v17_apply, val_main_v16_apply, val_main_v14_apply, val_main_call2_v2_apply,
    val_main_call2_v1_apply, val_main_v15_apply, val_main_cst_2_apply, val_main_call2_cst_apply]
  simp only [val_main_call2_v0_apply, Ideal.hostDivf_def, Ideal.hostUnary_sqrt_def, Ideal.maximumf_def, Ideal.mulf_def,
    Ideal.ofBits_def, Ideal.ofBits_zero_f32, hE, hr]
  exact quotient_real _ _ e he

open Cert.ReferenceIdeal.Read in
/-- The second input's rows, at the tighter bound. -/
theorem pairRows_real (x1 : FVec Ideal SRowsFeat .f32) (h : RealValued x1) :
    RealValued (Cert.ReferenceIdeal.Read.val_main_v9 (F := Ideal) x1) := by
  choose r hr using h
  obtain ⟨e, he, hE⟩ := clampTight_pos
  intro i
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, Ideal.hostDivf_def, Ideal.hostUnary_sqrt_def, Ideal.maximumf_def, Ideal.mulf_def,
    Ideal.ofBits_def, Ideal.ofBits_zero_f32, hE, hr]
  exact quotient_real _ _ e he

end Cert.NtXent

end
-- ==== Proof.Algebra.lean ====
/-
  The two forms of the loss agree on real-valued rows.

  Write the entries as real numbers. Both denominators of row q are then the cast of one nonnegative real

      den q = Σ_k [pair (q, k) not excluded] exp (2 · ⟨zn q, zn k⟩),

  and with a(i, j) = 2 · ⟨z i, zp j⟩ the pairwise summand is

      -log (exp (a(i, j)) / den j) = -a(i, j) + log (den j)     when den j > 0,
      -log (exp (a(i, j)) / 0)     = -log ⊤ = ⊥                  when den j = 0.

  If every denominator is positive both losses are real, and

      Σ_i Σ_j (-a(i, j) + log (den j)) = -2 · Σ_d (Σ_i z i d)(Σ_j zp j d) + 8192 · Σ_j log (den j)

  by the bilinearity of the inner product; dividing by 8192 gives the folded form. If some denominator vanishes,
  the folded loss has the summand log 0 = ⊥ and the pairwise one the summand ⊥ in every row; a finite sum of
  extended reals with a ⊥ summand is ⊥, as is a real plus ⊥, and ⊥ divided by a positive real.
-/
import proofs.«407364_j15762529976387_3_alg».proof.Proof.Spec
import proofs.«407364_j15762529976387_3_alg».proof.Proof.Consts

noncomputable section

open scoped BigOperators

namespace Cert.NtXent

open Idealize.ShloMosaic Idealize.ShloMosaic.ValueIdx

/-- The cast of a finite sum of reals is the sum of the casts. -/
private theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A finite sum of extended reals one of whose summands is ⊥ is ⊥: on the extended reals ⊥ absorbs every
    summand, ⊤ included. -/
private theorem sum_eq_bot {ι : Type} [DecidableEq ι] (s : Finset ι) (f : ι → EReal) {j : ι} (hj : j ∈ s)
    (h : f j = ⊥) : ∑ i ∈ s, f i = ⊥ := by
  rw [← Finset.add_sum_erase s f hj, h, EReal.bot_add]

/-- A one-bit word is 0 or 1. -/
private theorem bit_cases (b : BitVec 1) : b = 0#1 ∨ b = 1#1 := by
  revert b; decide

/-- The denominator of row q as a real number. -/
private def dn (zn : SRowsFeat.Idx → ℝ) (M : SPairs.Idx → BitVec 1) (q : Rows) : ℝ :=
  ∑ k : Rows, if M (ix2 q k) = 1#1 then 0 else Real.exp (2 * ∑ d : Feat, zn (ix2 q d) * zn (ix2 k d))

private theorem dn_nonneg (zn : SRowsFeat.Idx → ℝ) (M : SPairs.Idx → BitVec 1) (q : Rows) : 0 ≤ dn zn M q := by
  unfold dn
  refine Finset.sum_nonneg fun k _ => ?_
  split_ifs
  · exact le_rfl
  · exact (Real.exp_pos _).le

/-- An inner product of real rows divided by 1/2 is twice the real inner product. -/
private theorem div_half_coe (f g : Feat → ℝ) :
    Ideal.div (∑ d : Feat, (f d : EReal) * (g d : EReal)) half = ((2 * ∑ d : Feat, f d * g d : ℝ) : EReal) := by
  rw [half_eq, Ideal.div_coe (by norm_num)]
  simp only [← EReal.coe_mul]
  rw [← coe_sum, ← EReal.coe_mul]
  congr 1
  ring

/-- The denominator with the scaled left factor is the real one. -/
private theorem denScaled_coe (zn : SRowsFeat.Idx → ℝ) (M : SPairs.Idx → BitVec 1) (q : Rows) :
    denScaled (fun i => (zn i : EReal)) M q = (dn zn M q : EReal) := by
  unfold denScaled dn
  rw [coe_sum]
  refine Finset.sum_congr rfl fun k _ => ?_
  by_cases h : M (ix2 q k) = 1#1
  · rw [if_pos h, if_pos h, EReal.coe_zero]
  · rw [if_neg h, if_neg h, two_eq]
    simp only [← EReal.coe_mul]
    rw [← coe_sum, Ideal.exp_coe, Finset.mul_sum]
    congr 2
    refine Finset.sum_congr rfl fun d _ => ?_
    ring

/-- The denominator with the mask as a factor is the real one. -/
private theorem denMasked_coe (zn : SRowsFeat.Idx → ℝ) (M : SPairs.Idx → BitVec 1) (q : Rows) :
    denMasked (fun i => (zn i : EReal)) M q = (dn zn M q : EReal) := by
  unfold denMasked dn
  rw [coe_sum]
  refine Finset.sum_congr rfl fun k _ => ?_
  rw [div_half_coe (fun d => zn (ix2 q d)) (fun d => zn (ix2 k d)), Ideal.exp_coe]
  rcases bit_cases (M (ix2 q k)) with h | h
  · have h1 : ¬ M (ix2 q k) = 1#1 := by rw [h]; decide
    have e : (~~~(0#1 : BitVec 1)).toNat = 1 := by decide
    rw [if_neg h1, h, e, Nat.cast_one, EReal.coe_one, one_mul]
  · have e : (~~~(1#1 : BitVec 1)).toNat = 0 := by decide
    rw [if_pos h, h, e, Nat.cast_zero, EReal.coe_zero, zero_mul]

/-- Over a positive denominator the pairwise summand is real: -log (exp a / d) = -a + log d. -/
private theorem term_pos (a d : ℝ) (hd : 0 < d) :
    -(Ideal.log (Ideal.div (Ideal.exp (a : EReal)) (d : EReal))) = ((-a + Real.log d : ℝ) : EReal) := by
  rw [Ideal.exp_coe, Ideal.div_coe hd.ne', ← EReal.coe_mul, Ideal.log_coe,
    if_neg (not_le.mpr (mul_pos (Real.exp_pos a) (one_div_pos.mpr hd))), ← EReal.coe_neg]
  congr 1
  rw [Real.log_mul (Real.exp_pos a).ne' (one_div_pos.mpr hd).ne', Real.log_exp, one_div, Real.log_inv]
  ring

/-- Over a zero denominator the quotient is ⊤ and the pairwise summand is ⊥. -/
private theorem term_zero (a : ℝ) :
    -(Ideal.log (Ideal.div (Ideal.exp (a : EReal)) ((0 : ℝ) : EReal))) = ⊥ := by
  rw [Ideal.exp_coe, Ideal.div, if_pos EReal.coe_zero, if_pos (EReal.coe_pos.mpr (Real.exp_pos a)), Ideal.log_top,
    EReal.neg_top]

/-- The two losses on arrays of real numbers. -/
private theorem loss_real (z zn zp : SRowsFeat.Idx → ℝ) (M : SPairs.Idx → BitVec 1) :
    lossPairwise (fun i => (z i : EReal)) (fun i => (zn i : EReal)) (fun i => (zp i : EReal)) M
      = lossFolded (fun i => (z i : EReal)) (fun i => (zn i : EReal)) (fun i => (zp i : EReal)) M := by
  unfold lossPairwise lossFolded
  have hnum : ∀ i j : Rows, Ideal.div (∑ d : Feat, (z (ix2 i d) : EReal) * (zp (ix2 j d) : EReal)) half
      = ((2 * ∑ d : Feat, z (ix2 i d) * zp (ix2 j d) : ℝ) : EReal) := fun i j => div_half_coe _ _
  simp only [denMasked_coe, denScaled_coe, hnum]
  by_cases h : ∀ j : Rows, 0 < dn zn M j
  · -- every denominator is positive: both sides are real
    have hterm : ∀ i j : Rows,
        -(Ideal.log (Ideal.div (Ideal.exp ((2 * ∑ d : Feat, z (ix2 i d) * zp (ix2 j d) : ℝ) : EReal))
            (dn zn M j : EReal)))
          = ((-(2 * ∑ d : Feat, z (ix2 i d) * zp (ix2 j d)) + Real.log (dn zn M j) : ℝ) : EReal) :=
      fun i j => term_pos _ _ (h j)
    have hlog : ∀ q : Rows, Ideal.log ((dn zn M q : ℝ) : EReal) = ((Real.log (dn zn M q) : ℝ) : EReal) :=
      fun q => by rw [Ideal.log_coe, if_neg (not_le.mpr (h q))]
    simp only [hterm, hlog, ← coe_sum, ← EReal.coe_mul]
    rw [c8192_eq, c4096_eq, Ideal.div_coe (by norm_num), Ideal.div_coe (by norm_num), ← EReal.coe_neg,
      ← EReal.coe_mul, ← EReal.coe_mul, ← EReal.coe_add]
    congr 1
    have hA : ∑ i : Rows, ∑ j : Rows, ∑ d : Feat, z (ix2 i d) * zp (ix2 j d)
        = ∑ d : Feat, (∑ i : Rows, z (ix2 i d)) * (∑ j : Rows, zp (ix2 j d)) :=
      calc ∑ i : Rows, ∑ j : Rows, ∑ d : Feat, z (ix2 i d) * zp (ix2 j d)
          = ∑ i : Rows, ∑ d : Feat, ∑ j : Rows, z (ix2 i d) * zp (ix2 j d) :=
            Finset.sum_congr rfl fun i _ => Finset.sum_comm
        _ = ∑ d : Feat, ∑ i : Rows, ∑ j : Rows, z (ix2 i d) * zp (ix2 j d) := Finset.sum_comm
        _ = ∑ d : Feat, (∑ i : Rows, z (ix2 i d)) * (∑ j : Rows, zp (ix2 j d)) :=
            Finset.sum_congr rfl fun d _ => (Finset.sum_mul_sum _ _ _ _).symm
    have hsplit : ∑ i : Rows, ∑ j : Rows, (-(2 * ∑ d : Feat, z (ix2 i d) * zp (ix2 j d)) + Real.log (dn zn M j))
        = -(2 * ∑ i : Rows, ∑ j : Rows, ∑ d : Feat, z (ix2 i d) * zp (ix2 j d))
          + 8192 * ∑ j : Rows, Real.log (dn zn M j) := by
      simp only [Finset.sum_add_distrib, Finset.sum_neg_distrib, ← Finset.mul_sum, Finset.sum_const,
        Finset.card_univ, Fintype.card_fin, nsmul_eq_mul]
      norm_num
    rw [hsplit, hA]
    ring
  · -- some denominator vanishes: both sides are ⊥
    obtain ⟨j0, hj0⟩ := not_forall.mp h
    have hz : dn zn M j0 = 0 := le_antisymm (not_lt.mp hj0) (dn_nonneg zn M j0)
    have hR : ∑ q : Rows, Ideal.log ((dn zn M q : ℝ) : EReal) = ⊥ :=
      sum_eq_bot _ _ (Finset.mem_univ j0) (by rw [hz, Ideal.log_coe, if_pos le_rfl])
    have hin : ∀ i : Rows,
        ∑ j : Rows, -(Ideal.log (Ideal.div (Ideal.exp ((2 * ∑ d : Feat, z (ix2 i d) * zp (ix2 j d) : ℝ) : EReal))
            (dn zn M j : EReal))) = ⊥ :=
      fun i => sum_eq_bot _ _ (Finset.mem_univ j0) (by rw [hz]; exact term_zero _)
    have hout : ∑ _i : Rows, (⊥ : EReal) = ⊥ := sum_eq_bot _ _ (Finset.mem_univ j0) rfl
    simp only [hin]
    rw [hout, hR, EReal.add_bot, c8192_eq, Ideal.div_coe (by norm_num), EReal.bot_mul_coe_of_pos (by norm_num)]

/-- On rows whose entries are real numbers the pairwise loss is the folded one. -/
theorem lossPairwise_eq_lossFolded (Z ZN ZP : SRowsFeat.Idx → EReal) (M : SPairs.Idx → BitVec 1)
    (hZ : RealValued Z) (hZN : RealValued ZN) (hZP : RealValued ZP) :
    lossPairwise Z ZN ZP M = lossFolded Z ZN ZP M := by
  obtain ⟨z, rfl⟩ : ∃ z : SRowsFeat.Idx → ℝ, Z = fun i => (z i : EReal) :=
    ⟨fun i => (hZ i).choose, funext fun i => (hZ i).choose_spec⟩
  obtain ⟨zn, rfl⟩ : ∃ zn : SRowsFeat.Idx → ℝ, ZN = fun i => (zn i : EReal) :=
    ⟨fun i => (hZN i).choose, funext fun i => (hZN i).choose_spec⟩
  obtain ⟨zp, rfl⟩ : ∃ zp : SRowsFeat.Idx → ℝ, ZP = fun i => (zp i : EReal) :=
    ⟨fun i => (hZP i).choose, funext fun i => (hZP i).choose_spec⟩
  exact loss_real z zn zp M

end Cert.NtXent

end
-- ==== Proof.lean ====
/-
  A contrastive loss over `8192` rows of `128` features with an arbitrary boolean mask of excluded pairs: the tiled kernel
  against the pairwise reference, over the extended reals.

  Both programs normalise the rows of the two float inputs by their clamped norms (`z`, `zn` from the first, `zp` from
  the second). The reference sums, over all pairs `(i, j)`, `-log (exp (⟨z i, zp j⟩ / (1/2)) / den j)` and divides by
  `8192`, where `den j` is the sum over the unmasked columns `k` of `exp (⟨zn j, zn k⟩ / (1/2))`. The kernel computes
  `den` in a tiled region (row blocks of `1024`, accumulated over column blocks of `1024`) from `2·zn`, `zn` and the
  mask, and returns `-(Σ_d (Σ_i z i d)(Σ_j zp j d)) / 4096 + Σ_q log (den q)`.
  They agree because `-log (exp a / d) = -a + log d` for `d > 0`, the inner product is bilinear, and finite inputs make
  every normalised entry a real number; at a row whose every pair is masked `den = 0` and both results are `-∞`.

  The three frames are the generated ones (the reference's is its generated run with the result dropped); the
  idealization changed no operation, so `preserves` is trivial; `algebraic` joins the kernel's run (its result read off
  the frame run: Proof/KernelValue.lean over Proof/Region.lean and Proof/KernelHost.lean), the reference's run read
  index by index (Proof/RefSide.lean), finiteness (Proof/Finite.lean) and the law (Proof/Algebra.lean).
-/
import proofs.«407364_j15762529976387_3_alg».proof.Defs
import proofs.«407364_j15762529976387_3_alg».proof.Proof.Gen.Kernel
import proofs.«407364_j15762529976387_3_alg».proof.Proof.Gen.Kernel.Skeleton
import proofs.«407364_j15762529976387_3_alg».proof.Proof.Gen.Kernel.Launch
import proofs.«407364_j15762529976387_3_alg».proof.Proof.Gen.Kernel.Points
import proofs.«407364_j15762529976387_3_alg».proof.Proof.Gen.Kernel.Frame
import proofs.«407364_j15762529976387_3_alg».proof.Proof.Gen.KernelIdeal
import proofs.«407364_j15762529976387_3_alg».proof.Proof.Gen.KernelIdeal.Skeleton
import proofs.«407364_j15762529976387_3_alg».proof.Proof.Gen.KernelIdeal.Launch
import proofs.«407364_j15762529976387_3_alg».proof.Proof.Gen.KernelIdeal.Points
import proofs.«407364_j15762529976387_3_alg».proof.Proof.Gen.KernelIdeal.Frame
import proofs.«407364_j15762529976387_3_alg».proof.Proof.Gen.ReferenceIdeal
import proofs.«407364_j15762529976387_3_alg».proof.Proof.Gen.ReferenceIdeal.Run
import proofs.«407364_j15762529976387_3_alg».proof.Proof.Gen.ReferenceIdeal.Read
import proofs.«407364_j15762529976387_3_alg».proof.Proof.Gen.Pre_finite_inputs
import proofs.«407364_j15762529976387_3_alg».proof.Proof.KernelValue
import proofs.«407364_j15762529976387_3_alg».proof.Proof.RefSide
import proofs.«407364_j15762529976387_3_alg».proof.Proof.Finite
import proofs.«407364_j15762529976387_3_alg».proof.Proof.Algebra
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, the kernel ends at the folded loss of its normalised arrays and the
    reference at the pairwise loss of the same arrays; finite inputs make those arrays real-valued, where the two
    losses are one number. -/
theorem algebraic : Cert.algebraic_KernelIdeal_ReferenceIdeal := by
  intro m ρ m' ρ' hpre hagree
  refine ⟨fun c => fun _ => Cert.KernelIdeal.KernelValue.loss m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v33_eq (F := Ideal) _ _ _).trans ?_
  rw [Cert.ReferenceIdeal.RefValue.result_eq, (hagree c).1, (hagree c).2.1, (hagree c).2.2.2]
  funext _
  obtain ⟨hx0, hx1⟩ := Cert.NtXent.inputs_real _ _ _ _ (hpre c)
  exact Cert.NtXent.lossPairwise_eq_lossFolded _ _ _ _ (Cert.NtXent.rowsTight_real _ hx0)
    (Cert.NtXent.rowsLoose_real _ hx0) (Cert.NtXent.pairRows_real _ hx1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
